-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x320000 : Shape := ⟨2, ![2, 320000]⟩
abbrev S320000 : Shape := ⟨1, ![320000]⟩
abbrev S256x512 : Shape := ⟨2, ![256, 512]⟩
abbrev S256 : Shape := ⟨1, ![256]⟩
abbrev S_ : Shape := ⟨0, ![]⟩
abbrev S1x320000 : Shape := ⟨2, ![1, 320000]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S320000 : S_.BroadcastsInDim S320000 (![] : Fin 0 → Fin S320000.rank)
  reducesTo_S320000_S_d0 : S320000.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  slices_S2x320000_S1x320000_0_0 : S2x320000.Slices ![0, 0] S1x320000
  shapeCasts_S1x320000_S320000 : S1x320000.ShapeCasts S320000

variable [Facts]

def fn_part1 {F : FTy → Type} [FloatOps F] (main_arg1 : IVec S2x320000 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : IVec S1x320000 32 := (extractStridedSlice S1x320000 ![0, 0] · slices_S2x320000_S1x320000_0_0) main_arg1
  let main_v20 : IVec S320000 32 := shapeCast S320000 main_v19 shapeCasts_S1x320000_S320000
  let main_c_6 : IVec S_ 32 := constantI S_ 32 4294917296#32
  let main_v21 : IVec S320000 32 := broadcastInDim S320000 ![] bcast_S_S320000 main_c_6
  let main_v22 : IVec S320000 1 := cmpi .sge main_v20 main_v21
  let main_c_7 : IVec S_ 1 := constantI S_ 1 1#1
  let main_v23 : IVec S_ 1 := (fun x v => Host.reduce IntOp.andi x v reducesTo_S320000_S_d0 h_S_) main_v22 main_c_7
  let main_v24 : IVec S_ 1 := andi main_v18 main_v23
  let main_v25 : IVec S1x320000 32 := (extractStridedSlice S1x320000 ![0, 0] · slices_S2x320000_S1x320000_0_0) main_arg1
  let main_v26 : IVec S320000 32 := shapeCast S320000 main_v25 shapeCasts_S1x320000_S320000
  let main_c_8 : IVec S_ 32 := constantI S_ 32 50000#32
  let main_v27 : IVec S320000 32 := broadcastInDim S320000 ![] bcast_S_S320000 main_c_8
  let main_v28 : IVec S320000 1 := cmpi .slt main_v26 main_v27
  let main_c_9 : IVec S_ 1 := constantI S_ 1 1#1
  let main_v29 : IVec S_ 1 := (fun x v => Host.reduce IntOp.andi x v reducesTo_S320000_S_d0 h_S_) main_v28 main_c_9
  let main_v30 : IVec S_ 1 := andi main_v24 main_v29
  main_v30

def fn {F : FTy → Type} [FloatOps F] (main_arg0 : FVec F S50000x512 .f32) (main_arg1 : IVec S2x320000 32) (main_arg2 : FVec F S320000 .f32) (main_arg3 : FVec F S256x512 .f32) (main_arg4 : FVec F S256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S256x512 .f32 := Host.absf main_arg3
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S50000x512 : Shape := ⟨2, ![50000, 512]⟩
abbrev S2x320000 : Shape := ⟨2, ![2, 320000]⟩
abbrev S320000 : Shape := ⟨1, ![320000]⟩
abbrev S256x512 : Shape := ⟨2, ![256, 512]⟩
abbrev S256 : Shape := ⟨1, ![256]⟩
abbrev S512x256 : Shape := ⟨2, ![512, 256]⟩
abbrev S50000x256 : Shape := ⟨2, ![50000, 256]⟩
abbrev S2000x512 : Shape := ⟨2, ![2000, 512]⟩
abbrev S2000x256 : Shape := ⟨2, ![2000, 256]⟩
abbrev S1x320000 : Shape := ⟨2, ![1, 320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x256 : Shape := ⟨2, ![320000, 256]⟩
abbrev S1x256 : Shape := ⟨2, ![1, 256]⟩

abbrev nBuf : Space → Nat
  | .hbm => 44
  | .vmem => 5
  | .smem => 0
  | _ => 0

abbrev bufTy : (tb : Table) → Fin (tcTables nBuf tb) → BufTy
  | .hbm, ⟨0, _⟩ => ⟨S50000x512, .f32⟩
  | .hbm, ⟨1, _⟩ => ⟨S2x320000, .i32⟩
  | .hbm, ⟨2, _⟩ => ⟨S320000, .f32⟩
  | .hbm, ⟨3, _⟩ => ⟨S256x512, .f32⟩
  | .hbm, ⟨4, _⟩ => ⟨S256, .f32⟩
  | .hbm, ⟨5, _⟩ => ⟨S512x256, .f32⟩
  | .hbm, ⟨6, _⟩ => ⟨S50000x256, .f32⟩
  | .hbm, ⟨7, _⟩ => ⟨S1x320000, .i32⟩
  | .hbm, ⟨8, _⟩ => ⟨S320000, .i32⟩
  | .hbm, ⟨9, _⟩ => ⟨S1x320000, .i32⟩
  | .hbm, ⟨10, _⟩ => ⟨S320000, .i32⟩
  | .hbm, ⟨11, _⟩ => ⟨S_, .i32⟩
  | .hbm, ⟨12, _⟩ => ⟨S320000, .i32⟩
  | .hbm, ⟨13, _⟩ => ⟨S320000, .i1⟩
  | .hbm, ⟨14, _⟩ => ⟨S_, .i32⟩
  | .hbm, ⟨15, _⟩ => ⟨S320000, .i32⟩
  | .hbm, ⟨16, _⟩ => ⟨S320000, .i32⟩
  | .hbm, ⟨17, _⟩ => ⟨S320000, .i32⟩
  | .hbm, ⟨18, _⟩ => ⟨S320000x1, .i32⟩
  | .hbm, ⟨19, _⟩ => ⟨S1, .i32⟩
  | .hbm, ⟨20, _⟩ => ⟨S_, .i32⟩
  | .hbm, ⟨21, _⟩ => ⟨S320000x1, .i32⟩
  | .hbm, ⟨22, _⟩ => ⟨S320000x1, .i1⟩
  | .hbm, ⟨23, _⟩ => ⟨S1x1, .i32⟩
  | .hbm, ⟨24, _⟩ => ⟨S320000x1, .i32⟩
  | .hbm, ⟨25, _⟩ => ⟨S320000x1, .i1⟩
  | .hbm, ⟨26, _⟩ => ⟨S320000x1, .i1⟩
  | .hbm, ⟨27, _⟩ => ⟨S_, .i1⟩
  | .hbm, ⟨28, _⟩ => ⟨S320000, .i1⟩
  | .hbm, ⟨29, _⟩ => ⟨S320000x256, .f32⟩
  | .hbm, ⟨30, _⟩ => ⟨S320000x256, .i1⟩
  | .hbm, ⟨31, _⟩ => ⟨S_, .f32⟩
  | .hbm, ⟨32, _⟩ => ⟨S320000x256, .f32⟩
  | .hbm, ⟨33, _⟩ => ⟨S320000x256, .f32⟩
  | .hbm, ⟨34, _⟩ => ⟨S320000x1, .f32⟩
  | .hbm, ⟨35, _⟩ => ⟨S320000x256, .f32⟩
  | .hbm, ⟨36, _⟩ => ⟨S320000x256, .f32⟩
  | .hbm, ⟨37, _⟩ => ⟨S_, .f32⟩
  | .hbm, ⟨38, _⟩ => ⟨S50000x256, .f32⟩
  | .hbm, ⟨39, _⟩ => ⟨S320000x1, .i32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S256x512_S512x256_1_0 : S256x512.Transposes [1, 0] S512x256
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x256_0 : S320000.BroadcastsInDim S320000x256 (![0] : Fin 1 → Fin S320000x256.rank)
  bcast_S_S320000x256 : S_.BroadcastsInDim S320000x256 (![] : Fin 0 → Fin S320000x256.rank)
  bcast_S320000x1_S320000x256_0_1 : S320000x1.BroadcastsInDim S320000x256 (![0, 1] : Fin 2 → Fin S320000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S2000x512_S512x256_S2000x256_1_0_0_1_n_n_wf : DotDims.WF S2000x512 S512x256 S2000x256 [1] [0] [0] [1] [] []
  gather_S50000x256_S320000x1_S320000x256_1_0_n_n_0_1_1256_wf : GatherDims.WF S50000x256 S320000x1 S320000x256 [1] [0] [] [0] [] 1 ![1, 256]
  scatter_S50000x256_S320000x1_S320000x256_1_0_0_1_wf : ScatterDims.WF S50000x256 S320000x1 S320000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S320000x1_S320000x256_1_0_n_n_0_1_1256 : GatherDims S50000x256 S320000x1 S320000x256 where
  offsetDims := [1]
  collapsedSliceDims := [0]
  operandBatchingDims := []
  startIndicesBatchingDims := []
  startIndexMap := [0]
  indexVectorDim := 1
  sliceSizes := ![1, 256]
  wf := gather_S50000x256_S320000x1_S320000x256_1_0_n_n_0_1_1256_wf
def scatter_S50000x256_S320000x1_S320000x256_1_0_0_1 : ScatterDims S50000x256 S320000x1 S320000x256 where
  updateWindowDims := [1]
  insertedWindowDims := [0]
  scatterDimsToOperandDims := [0]
  indexVectorDim := 1
  wf := scatter_S50000x256_S320000x1_S320000x256_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S2x320000 : Shape := ⟨2, ![2, 320000]⟩
abbrev S320000 : Shape := ⟨1, ![320000]⟩
abbrev S256x512 : Shape := ⟨2, ![256, 512]⟩
abbrev S256 : Shape := ⟨1, ![256]⟩
abbrev S512x256 : Shape := ⟨2, ![512, 256]⟩
abbrev S50000x256 : Shape := ⟨2, ![50000, 256]⟩
abbrev S1x320000 : Shape := ⟨2, ![1, 320000]⟩
abbrev S320000x1 : Shape := ⟨2, ![320000, 1]⟩
abbrev S_ : Shape := ⟨0, ![]⟩
abbrev S320000x256 : Shape := ⟨2, ![320000, 256]⟩
abbrev S1x256 : Shape := ⟨2, ![1, 256]⟩

abbrev nBuf : Space → Nat
  | .hbm => 30
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x320000, .i32⟩
  | .hbm, ⟨2, _⟩ => ⟨S320000, .f32⟩
  | .hbm, ⟨3, _⟩ => ⟨S256x512, .f32⟩
  | .hbm, ⟨4, _⟩ => ⟨S256, .f32⟩
  | .hbm, ⟨5, _⟩ => ⟨S512x256, .f32⟩
  | .hbm, ⟨6, _⟩ => ⟨S50000x256, .f32⟩
  | .hbm, ⟨7, _⟩ => ⟨S1x320000, .i32⟩
  | .hbm, ⟨8, _⟩ => ⟨S320000, .i32⟩
  | .hbm, ⟨9, _⟩ => ⟨S1x320000, .i32⟩
  | .hbm, ⟨10, _⟩ => ⟨S320000, .i32⟩
  | .hbm, ⟨11, _⟩ => ⟨S320000x1, .f32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S320000x256, .f32⟩
  | .hbm, ⟨22, _⟩ => ⟨S320000x256, .f32⟩
  | .hbm, ⟨23, _⟩ => ⟨S_, .f32⟩
  | .hbm, ⟨24, _⟩ => ⟨S50000x256, .f32⟩
  | .hbm, ⟨25, _⟩ => ⟨S320000x1, .i32⟩
  | .hbm, ⟨26, _⟩ => ⟨S50000x256, .f32⟩
  | .hbm, ⟨27, _⟩ => ⟨S1x256, .f32⟩
  | .hbm, ⟨28, _⟩ => ⟨S50000x256, .f32⟩
  | .hbm, ⟨29, _⟩ => ⟨S50000x256, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  transposes_S256x512_S512x256_1_0 : S256x512.Transposes [1, 0] S512x256
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x256_0_1 : S320000x1.BroadcastsInDim S320000x256 (![0, 1] : Fin 2 → Fin S320000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x512_S512x256_S50000x256_1_0_0_1_n_n_wf : DotDims.WF S50000x512 S512x256 S50000x256 [1] [0] [0] [1] [] []
  gather_S50000x256_S320000x1_S320000x256_1_0_n_n_0_1_1256_wf : GatherDims.WF S50000x256 S320000x1 S320000x256 [1] [0] [] [0] [] 1 ![1, 256]
  scatter_S50000x256_S320000x1_S320000x256_1_0_0_1_wf : ScatterDims.WF S50000x256 S320000x1 S320000x256 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S320000x1_S320000x256_1_0_n_n_0_1_1256 : GatherDims S50000x256 S320000x1 S320000x256 where
  offsetDims := [1]
  collapsedSliceDims := [0]
  operandBatchingDims := []
  startIndicesBatchingDims := []
  startIndexMap := [0]
  indexVectorDim := 1
  sliceSizes := ![1, 256]
  wf := gather_S50000x256_S320000x1_S320000x256_1_0_n_n_0_1_1256_wf
def scatter_S50000x256_S320000x1_S320000x256_1_0_0_1 : ScatterDims S50000x256 S320000x1 S320000x256 where
  updateWindowDims := [1]
  insertedWindowDims := [0]
  scatterDimsToOperandDims := [0]
  indexVectorDim := 1
  wf := scatter_S50000x256_S320000x1_S320000x256_1_0_0_1_wf

class Facts : Prop extends Facts₀ where

variable [Facts]
-- ==== Proof.Projection.lean ====
/-
  The dense projection both programs compute before they aggregate over edges, as ONE function of the node features
  `x` (50000 nodes, 512 input channels) and the weight matrix `W` (256 output channels by 512 input channels):

      proj x W (n, o) = ∑ k < 512, x (n, k) · W (o, k)          (that is, x · Wᵀ)

  over the extended reals. The kernel reaches it 2000 rows at a time with `W` transposed beforehand; the reference
  by one whole product with the transposed `W`. Both are this sum: a different tiling of the rows does not regroup
  any entry's sum, so no law of the extended reals beyond reading each side at an index is needed.
-/
import Idealize.ShloMosaic.PureOps.Ideal
import Idealize.ShloMosaic.Lib.ValueIdx

open scoped BigOperators

noncomputable section

namespace Cert.NodeAgg

open Idealize.ShloMosaic Idealize.ShloMosaic.ValueIdx

/-- `x · Wᵀ`: entry `(n, o)` is row `n` of `x` against row `o` of `W`. -/
def proj (x : FVec Ideal ⟨2, ![50000, 512]⟩ .f32) (W : FVec Ideal ⟨2, ![256, 512]⟩ .f32) :
    FVec Ideal ⟨2, ![50000, 256]⟩ .f32 :=
  fun i => ∑ k : Fin 512, x (ix2 (i 0) k) * W (ix2 (i 1) k)

end Cert.NodeAgg

end
-- ==== Proof.KernelProj.lean ====
/-
  What the kernel's one region leaves in its output array: the projection `x · Wᵀ`.

  The region has 25 grid points. Point `t` is handed rows `2000 t … 2000 t + 1999` of the node features `x` (all 512
  columns) and the whole 512 × 256 matrix the program transposed `W` into beforehand, multiplies them on the
  matrix unit into a zero accumulator, and writes the 2000 × 256 product back as rows `2000 t …` of the output.
  At the extended reals the narrowing of both operands is the identity and the product's entry `(p, q)` is
  `∑ k, xblock (p, k) · Wᵀ (k, q)`; with `Wᵀ (k, q) = W (q, k)` and row `p` of the block being row `2000 t + p` of `x`,
  this is entry `(2000 t + p, q)` of `proj x W`. The 25 blocks tile the 50000 rows (row `r` lies in block `r / 2000`),
  so the whole output array ends at `proj x W`.
-/
import proofs.«423840_j75058848465363_1_alg».proof.Proof.Gen.KernelIdeal.Frame
import proofs.«423840_j75058848465363_1_alg».proof.Proof.Projection
import Idealize.ShloMosaic.Lib.Pipeline.Value
import Idealize.ShloMosaic.Lib.ValueIdx
import Idealize.ShloMosaic.Lib.StableHlo.Run
import Idealize.ShloMosaic.PureOps.Ideal.Laws

set_option maxRecDepth 16384

open scoped BigOperators

noncomputable section

namespace Cert.KernelIdeal.RegionValue

open Cert.KernelIdeal Cert.KernelIdeal.Gen Idealize.ShloMosaic Idealize.ShloMosaic.TcCoe Idealize.SL.Sem
open Idealize.ShloMosaic.ValueIdx Idealize.ShloMosaic.StableHlo Cert.NodeAgg
open Idealize.ShloMosaic.Pipeline (Dat)

variable (m : (ℓ : Loc nD τ sig) → Buf (Elt Ideal) ℓ)

/-! ## The matrix product of one point, at an entry -/

/-- The record of the body's one contraction: the left operand's axis 1 against the right operand's axis 0. -/
abbrev dotK := dot_S2000x512_S512x256_S2000x256_1_0_0_1_n_n

theorem lhsK_0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem lhsK_1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem rhsK_0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem rhsK_1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- Entry `(p, q)` of the body's product of a block `xb` of features and the transposed weights `wt`: the sum over
    the 512 contracted columns. Narrowing either operand changes nothing at the extended reals, and the accumulator
    starts at zero. -/
theorem product_apply (xb : Vec Ideal S2000x512 .f32) (wt : Vec Ideal S512x256 .f32) (p : Fin 2000) (q : Fin 256) :
    k0_pay1 (F := Ideal) xb wt (ix2 p q) = ∑ k : Fin 512, xb (ix2 p k) * wt (ix2 k q) := by
  unfold k0_pay1
  simp only [matmul]
  rw [Ideal.matmul_constant_zero_apply, ← Equiv.sum_comp (contrEquiv1 dot_S2000x512_S512x256_S2000x256_1_0_0_1_n_n 512 rfl rfl).symm]
  refine Finset.sum_congr rfl fun k _ => ?_
  have hk := contrEquiv1_symm_val dot_S2000x512_S512x256_S2000x256_1_0_0_1_n_n 512 rfl rfl k
  have el : dot_S2000x512_S512x256_S2000x256_1_0_0_1_n_n.lhsIdx (ix2 p q) ((contrEquiv1 dot_S2000x512_S512x256_S2000x256_1_0_0_1_n_n 512 rfl rfl).symm k) = ix2 p k := funext fun a => Fin.ext (by
    match a with
    | ⟨0, _⟩ => exact lhsK_0 _ _
    | ⟨1, _⟩ => exact (lhsK_1 _ _).trans hk)
  have er : dot_S2000x512_S512x256_S2000x256_1_0_0_1_n_n.rhsIdx (ix2 p q) ((contrEquiv1 dot_S2000x512_S512x256_S2000x256_1_0_0_1_n_n 512 rfl rfl).symm k) = ix2 k q := funext fun a => Fin.ext (by
    match a with
    | ⟨0, _⟩ => exact (rhsK_0 _ _).trans hk
    | ⟨1, _⟩ => exact rhsK_1 _ _)
  rw [el, er, truncf_apply, truncf_apply, shapeCast_self]

/-! ## The blocks a point reads and writes -/

theorem hz : (![0, 0] : Fin 2 → Nat) = fun _ => 0 := funext fun a => by fin_cases a <;> rfl

/-- The printed block numbers, decided over the 25 points: features and output move down one block of rows per
    point; the transposed weights stay put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The matrix the region is handed as its second operand is `W` transposed: the one host operation before the region. -/
theorem transposed_weights (c : Dev nD) :
    (V m c main_v0 : S512x256.Idx → EReal)
      = transpose S512x256 [1, 0] (m ((c : Thread nD τ).loc main_arg3)) transposes_S256x512_S512x256_1_0 := by
  show StableHlo.after hostOps0 (fun b => m (c, b)) (Proc.devRef .tc main_v0) = _
  after_results

/-- WHAT POINT `t` WRITES BACK is block `t` of the projection: entry `(p, q)` of the product is the sum over `k` of the
    feature block's `(p, k)`, which is `x (2000 t + p, k)`, times the transposed weights' `(k, q)`, which is `W (q, k)`. -/
theorem flushed_eq (c : Dev nD) (t : Fin cfg0.N) :
    (dats m 0 c).flushed 2 t = ((cfg0.win 2).blk t).view.read (Elt Ideal)
      (proj (m ((c : Thread nD τ).loc main_arg0)) (m ((c : Thread nD τ).loc main_arg3))) := by
  show (cfg0.win 2).cut (grid0.coords t) ((dats m 0 c).after 2 t) = _
  rw [after0_2]
  unfold out0_2
  rw [View.canon_unit_zero hz]
  simp only [View.ld_unit_zero (S := S2000x512) hz, View.ld_unit_zero (S := S512x256) hz]
  obtain ⟨e0, e1, e2, e3, e4, e5⟩ := idx_facts t
  funext j
  obtain ⟨p, q, rfl⟩ : ∃ (p : Fin 2000) (q : Fin 256), j = ix2 p q := ⟨j 0, j 1, eq_ix2 j⟩
  refine (product_apply (iblk m c 0 t) (iblk m c 1 t) p q).trans ?_
  show _ = proj _ _ (((cfg0.win 2).blk t).view.emb (ix2 p q))
  unfold proj
  refine Finset.sum_congr rfl fun k _ => ?_
  have hx : iblk m c 0 t (ix2 p k)
      = m ((c : Thread nD τ).loc main_arg0) (ix2 ((((cfg0.win 2).blk t).view.emb (ix2 p q)) 0) k) := by
    show V m c main_arg0 (((cfg0.win 0).blk t).view.emb (ix2 p k)) = _
    rw [V_main_arg0]
    refine congrArg (m ((c : Thread nD τ).loc main_arg0)) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have hw : iblk m c 1 t (ix2 k q)
      = m ((c : Thread nD τ).loc main_arg3) (ix2 ((((cfg0.win 2).blk t).view.emb (ix2 p q)) 1) k) := by
    show V m c main_v0 (((cfg0.win 1).blk t).view.emb (ix2 k q)) = _
    rw [transposed_weights]
    exact transpose_apply [1, 0] _ transposes_S256x512_S512x256_1_0 _
      (ix2 ((((cfg0.win 2).blk t).view.emb (ix2 p q)) 1) k) (fun b => match b with
        | ⟨0, _⟩ => by show k.val = win0_1.index t (0 : Fin 2) * 512 + 1 * k.val; omega
        | ⟨1, _⟩ => by show win0_2.index t (1 : Fin 2) * 256 + 1 * q.val = win0_1.index t (1 : Fin 2) * 256 + 1 * q.val; omega)
  rw [hx, hw]

/-! ## The blocks tile the output -/

/-- An index of the output is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v1).slice (win0_2.rect t)).set ↔ _
  rw [View.set_slice_whole, Rect.mem_set_unit]
  exact Iff.rfl

/-- Row `r` of the output lies in the block of point `r / 2000`, and every point writes its block back. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have ht : (i 0).val / 2000 < cfg0.N := by
    show _ < grid0.N
    rw [N_0]; omega
  obtain ⟨-, -, -, -, e4, e5⟩ := idx_facts ⟨(i 0).val / 2000, ht⟩
  have e4' : win0_2.index ⟨(i 0).val / 2000, ht⟩ (0 : Fin 2) = (i 0).val / 2000 := e4
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    omega
  | ⟨1, _⟩ =>
    show win0_2.index ⟨(i 0).val / 2000, ht⟩ (1 : Fin 2) * 256 ≤ (i 1).val
      ∧ (i 1).val < win0_2.index ⟨(i 0).val / 2000, ht⟩ (1 : Fin 2) * 256 + 256
    omega

/-! ## The output array after the region -/

/-- The region's output array ends at the projection `x · Wᵀ` of the feature and weight arrays as launched. -/
theorem final (c : Dev nD) :
    (dats m 0 c).arrAt 2 cfg0.N = proj (m ((c : Thread nD τ).loc main_arg0)) (m ((c : Thread nD τ).loc main_arg3)) :=
  (dats m 0 c).arrAt_eq_of_cover 2 _ (fun t _ => flushed_eq m c t) cover

end Cert.KernelIdeal.RegionValue

end
-- ==== Proof.WrapIndex.lean ====
/-
  Three facts that mention no program: two about one-bit masks and one about a wrapped row number.

  * A left fold by `and` that starts at 1 and meets only 1s ends at 1; hence an `and`-reduction of an all-ones
    array from the initial value 1 is 1 at every result index, whatever axes it reduces.
  * NumPy's wrapping of a row number `s` of a table with 50000 rows, `if s < 0 then s + 50000 else s`, sends the
    range `-50000 ≤ s < 50000` into `0 ≤ · ≤ 49999`: both range tests a bounds-checked lookup makes on the wrapped
    number pass. (On 32-bit words the sum `s + 50000` does not overflow there, so it is the integers' sum.)
-/
import Idealize.ShloMosaic.Lib.ReduceAll
import Idealize.ShloMosaic.Lib.WordArith
import Idealize.ShloMosaic.Lib.ValueIdx

namespace Cert.NodeAgg

open Idealize.ShloMosaic

/-- A left fold by `and` from 1 over words that are all 1 is 1. -/
theorem foldl_andi_ones {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩)
      (fun n hn => hl n (List.mem_cons_of_mem _ hn))

/-- An `and`-reduction of an array of ones from the initial value one is one at every index. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

theorem toInt_zero32 : (0#32 : BitVec 32).toInt = 0 := by decide
theorem toInt_50000 : (50000#32 : BitVec 32).toInt = 50000 := by decide
theorem toInt_49999 : (49999#32 : BitVec 32).toInt = 49999 := by decide
theorem toInt_neg50000 : (4294917296#32 : BitVec 32).toInt = -50000 := by decide

/-- The wrapped row number of `s`: `s + 50000` when `s` is negative, else `s`. -/
def wrap (s : BitVec 32) : BitVec 32 := Scalar.select (IntOp.cmpi .slt s 0#32) (IntOp.addi s 50000#32) s

/-- A row number in `[-50000, 50000)` wraps into `[0, 49999]`. -/
theorem wrap_toInt (s : BitVec 32) (h1 : -50000 ≤ s.toInt) (h2 : s.toInt < 50000) :
    0 ≤ (wrap s).toInt ∧ (wrap s).toInt ≤ 49999 := by
  unfold wrap
  by_cases hneg : IntOp.cmpi .slt s 0#32 = 1#1
  · have hs : s.toInt < 0 := by
      have := IntOp.cmpi_slt.1 hneg
      rwa [toInt_zero32] at this
    rw [hneg, ValueIdx.select_one]
    have e : (IntOp.addi s 50000#32).toInt = s.toInt + 50000 := by
      unfold IntOp.addi
      rw [WordArith.toInt_add_of_bounds s 50000#32 (by rw [toInt_50000]; omega) (by rw [toInt_50000]; omega), toInt_50000]
    rw [e]; omega
  · have hs : ¬ s.toInt < 0 := by
      intro h
      exact hneg (IntOp.cmpi_slt.2 (by rw [toInt_zero32]; exact h))
    rw [ValueIdx.eq_zero_of_ne_one hneg, ValueIdx.select_zero]
    omega

/-- So both tests of a bounds-checked lookup on the wrapped number pass. -/
theorem wrap_tests (s : BitVec 32) (h1 : -50000 ≤ s.toInt) (h2 : s.toInt < 50000) :
    IntOp.cmpi .sge (wrap s) 0#32 = 1#1 ∧ IntOp.cmpi .sle (wrap s) 49999#32 = 1#1 := by
  obtain ⟨a, b⟩ := wrap_toInt s h1 h2
  exact ⟨IntOp.cmpi_sge.2 (by rw [toInt_zero32]; exact a), IntOp.cmpi_sle.2 (by rw [toInt_49999]; exact b)⟩

end Cert.NodeAgg
-- ==== Proof.EdgeAggregate.lean ====
/-
  The part of both programs that follows the projection `h = x · Wᵀ`: for every edge `e` look up row `src e` of `h`, scale
  it by the edge's weight, add it into row `dst e` of a zero array, and finally add the bias to every row.

  The two programs write the lookup differently. The reference indexes NumPy-style: a negative row number `s` is
  wrapped to `s + 50000`, and the lookup itself then clamps whatever it is given into `[0, 49999]`. The kernel wraps in
  the same way but then TESTS the wrapped number against `0 ≤ · ≤ 49999` and returns a not-a-number row where the
  test fails, the clamped lookup's row where it passes. For a row number in `[-50000, 50000)` the wrapped number is
  in `[0, 49999]` (Proof/WrapIndex.lean), the test passes on every edge, and the kernel's lookup IS the reference's.
  Everything after the lookup is the same text in both programs, on the same operands.
-/
import proofs.«423840_j75058848465363_1_alg».proof.Proof.Gen.KernelIdeal
import proofs.«423840_j75058848465363_1_alg».proof.Proof.Gen.ReferenceIdeal
import proofs.«423840_j75058848465363_1_alg».proof.Proof.WrapIndex
import Idealize.ShloMosaic.PureOps.Ideal

noncomputable section

/-! ## The kernel's spelling -/

namespace Cert.KernelIdeal.EdgeTail

open Cert.KernelIdeal Cert.KernelIdeal.Gen Idealize.ShloMosaic Cert.NodeAgg

/-- The edges' source row numbers: row 0 of the edge list. -/
def src (ei : IVec S2x320000 32) : IVec S320000 32 :=
  shapeCast S320000 (extractStridedSlice S1x320000 ![0, 0] ei slices_S2x320000_S1x320000_0_0) shapeCasts_S1x320000_S320000

/-- The edges' target row numbers: row 1 of the edge list. -/
def dst (ei : IVec S2x320000 32) : IVec S320000 32 :=
  shapeCast S320000 (extractStridedSlice S1x320000 ![1, 0] ei slices_S2x320000_S1x320000_1_0) shapeCasts_S1x320000_S320000

/-- The wrapped source row numbers, as the one-column array of start indices the lookup takes. -/
def wrappedCol (ei : IVec S2x320000 32) : IVec S320000x1 32 :=
  broadcastInDim S320000x1 ![0] bcast_S320000_S320000x1_0
    (select (cmpi .slt (src ei) (broadcastInDim S320000 ![] bcast_S_S320000 (constantI S_ 32 0#32)))
      (addi (src ei) (broadcastInDim S320000 ![] bcast_S_S320000 (constantI S_ 32 50000#32))) (src ei))

/-- The kernel's range test on each wrapped number: `0 ≤ ·` and `· ≤ 49999`. -/
def inRange (ei : IVec S2x320000 32) : IVec S320000x1 1 :=
  andi (cmpi .sge (wrappedCol ei) (broadcastInDim S320000x1 ![] bcast_S_S320000x1 (constantI S_ 32 0#32)))
    (cmpi .sle (wrappedCol ei) (broadcastInDim S320000x1 ![0, 1] bcast_S1x1_S320000x1_0_1
      (broadcastInDim S1x1 ![1] bcast_S1_S1x1_1 (constantI S1 32 49999#32))))

/-- The test per edge (an `and` over the one column), spread over the 256 channels of the edge's row. -/
def rowMask (ei : IVec S2x320000 32) : IVec S320000x256 1 :=
  broadcastInDim S320000x256 ![0] bcast_S320000_S320000x256_0
    ((fun x v => Host.reduce IntOp.andi x v reducesTo_S320000x1_S320000_d1 h_S_) (inRange ei) (constantI S_ 1 1#1))

/-- The lookup proper: row `wrappedCol e` of `h`, clamped into the table, for every edge. -/
def lookup (h : FVec Ideal S50000x256 .f32) (ei : IVec S2x320000 32) : FVec Ideal S320000x256 .f32 :=
  Host.gather gather_S50000x256_S320000x1_S320000x256_1_0_n_n_0_1_1256 h (wrappedCol ei)

/-- The kernel's bounds-checked lookup: the looked-up row where the test passes, a not-a-number row elsewhere. -/
def take (h : FVec Ideal S50000x256 .f32) (ei : IVec S2x320000 32) : FVec Ideal S320000x256 .f32 :=
  select (rowMask ei) (lookup h ei)
    (broadcastInDim S320000x256 ![] bcast_S_S320000x256 (constant (F := Ideal) S_ .f32 0x7FC00000#32))

/-- What follows the lookup: the rows `g` scaled by the edge weights, summed into their target rows of a zero array,
    plus the bias on every row. -/
def scatterBias (g : FVec Ideal S320000x256 .f32) (ei : IVec S2x320000 32) (ew : FVec Ideal S320000 .f32)
    (b : FVec Ideal S256 .f32) : FVec Ideal S50000x256 .f32 :=
  addf (Host.scatterAdd scatter_S50000x256_S320000x1_S320000x256_1_0_0_1
      (broadcastInDim S50000x256 ![] bcast_S_S50000x256 (constant (F := Ideal) S_ .f32 0x00000000#32))
      (broadcastInDim S320000x1 ![0] bcast_S320000_S320000x1_0 (dst ei))
      (mulf (broadcastInDim S320000x256 ![0, 1] bcast_S320000x1_S320000x256_0_1
        (broadcastInDim S320000x1 ![0] bcast_S320000_S320000x1_0 ew)) g))
    (broadcastInDim S50000x256 ![0, 1] bcast_S1x256_S50000x256_0_1 (broadcastInDim S1x256 ![1] bcast_S256_S1x256_1 b))

/-- Every source row number lies in `[-50000, 50000)`: the domain on which NumPy-style indexing of a 50000-row table
    is defined. -/
def SrcInRange (ei : IVec S2x320000 32) : Prop :=
  ∀ e : S320000.Idx, -50000 ≤ (src ei e).toInt ∧ (src ei e).toInt < 50000

/-- In that domain the range test passes on every edge. -/
theorem inRange_one (ei : IVec S2x320000 32) (hin : SrcInRange ei) (i : S320000x1.Idx) : inRange ei i = 1#1 := by
  have key : ∀ s : BitVec 32, -50000 ≤ s.toInt → s.toInt < 50000 →
      IntOp.andi (IntOp.cmpi .sge (Scalar.select (IntOp.cmpi .slt s 0#32) (IntOp.addi s 50000#32) s) 0#32)
        (IntOp.cmpi .sle (Scalar.select (IntOp.cmpi .slt s 0#32) (IntOp.addi s 50000#32) s) 49999#32) = 1#1 :=
    fun s h1 h2 => IntOp.andi_eq_one.2 (wrap_tests s h1 h2)
  unfold inRange wrappedCol
  simp only [andi, cmpi, select, addi, broadcastInDim, constantI]
  exact key _ (hin _).1 (hin _).2

/-- So the kernel's bounds-checked lookup is the plain lookup there. -/
theorem take_eq_lookup (h : FVec Ideal S50000x256 .f32) (ei : IVec S2x320000 32) (hin : SrcInRange ei) :
    take h ei = lookup h ei := by
  funext j
  have hmask : rowMask ei j = 1#1 := by
    unfold rowMask
    simp only [broadcastInDim]
    exact reduce_andi_ones _ _ _ _ (fun _ => rfl) (inRange_one ei hin) _
  unfold take
  simp only [select]
  rw [hmask, ValueIdx.select_one]

end Cert.KernelIdeal.EdgeTail

/-! ## The reference's spelling, and the bridge -/

namespace Cert.ReferenceIdeal.EdgeTail

open Cert.ReferenceIdeal Cert.ReferenceIdeal.Gen Idealize.ShloMosaic

/-- The reference's result as a function of the projected features `h`: look up, scale, scatter-add, add the bias. -/
def aggregate (h : FVec Ideal S50000x256 .f32) (ei : IVec S2x320000 32) (ew : FVec Ideal S320000 .f32)
    (b : FVec Ideal S256 .f32) : FVec Ideal S50000x256 .f32 :=
  addf (Host.scatterAdd scatter_S50000x256_S320000x1_S320000x256_1_0_0_1 (broadcastInDim S50000x256 ![] bcast_S_S50000x256 (constant (F := Ideal) S_ .f32 0x00000000#32)) (broadcastInDim S320000x1 ![0] bcast_S320000_S320000x1_0 (shapeCast _ (extractStridedSlice S1x320000 ![1, 0] ei slices_S2x320000_S1x320000_1_0) shapeCasts_S1x320000_S320000)) (mulf (broadcastInDim S320000x256 ![0, 1] bcast_S320000x1_S320000x256_0_1 (broadcastInDim S320000x1 ![0] bcast_S320000_S320000x1_0 ew)) (Host.gather gather_S50000x256_S320000x1_S320000x256_1_0_n_n_0_1_1256 h (broadcastInDim S320000x1 ![0] bcast_S320000_S320000x1_0 (select (cmpi .slt (shapeCast _ (extractStridedSlice S1x320000 ![0, 0] ei slices_S2x320000_S1x320000_0_0) shapeCasts_S1x320000_S320000) (broadcastInDim S320000 ![] bcast_S_S320000 (constantI S_ 32 0#32))) (addi (shapeCast _ (extractStridedSlice S1x320000 ![0, 0] ei slices_S2x320000_S1x320000_0_0) shapeCasts_S1x320000_S320000) (broadcastInDim S320000 ![] bcast_S_S320000 (constantI S_ 32 50000#32))) (shapeCast _ (extractStridedSlice S1x320000 ![0, 0] ei slices_S2x320000_S1x320000_0_0) shapeCasts_S1x320000_S320000)))))) (broadcastInDim S50000x256 ![0, 1] bcast_S1x256_S50000x256_0_1 (broadcastInDim S1x256 ![1] bcast_S256_S1x256_1 b))

end Cert.ReferenceIdeal.EdgeTail

namespace Cert.NodeAgg

open Idealize.ShloMosaic

/-- The kernel's tail over the plain lookup is the reference's `aggregate`: the same operations on the same operands
    (the two programs' shape records carry the same numbers). -/
theorem scatterBias_lookup_eq (h : FVec Ideal Cert.KernelIdeal.S50000x256 .f32) (ei : IVec Cert.KernelIdeal.S2x320000 32)
    (ew : FVec Ideal Cert.KernelIdeal.S320000 .f32) (b : FVec Ideal Cert.KernelIdeal.S256 .f32) :
    Cert.KernelIdeal.EdgeTail.scatterBias (Cert.KernelIdeal.EdgeTail.lookup h ei) ei ew b
      = Cert.ReferenceIdeal.EdgeTail.aggregate h ei ew b := rfl

end Cert.NodeAgg

end
-- ==== Proof.KernelResult.lean ====
/-
  What the kernel program leaves in its result buffer, and its run re-posted at that value.

  After the region the program works on the host: it splits the edge list into source and target row numbers, looks
  the source rows of the region's output up (bounds-checked), scales them by the edge weights, adds them into their
  target rows of a zero array and adds the bias. Read as one term of the buffers the region left, with the region's
  output at the projection `x · Wᵀ` (Proof/KernelProj.lean) and the arguments as launched, that is
  `scatterBias (take (proj x W) edges) edges weights bias` (Proof/EdgeAggregate.lean); where every source row number is in
  `[-50000, 50000)` the bounds-checked lookup is the plain one and the whole is the reference's `aggregate`.
-/
import proofs.«423840_j75058848465363_1_alg».proof.Proof.Gen.KernelIdeal.Frame
import proofs.«423840_j75058848465363_1_alg».proof.Proof.KernelProj
import proofs.«423840_j75058848465363_1_alg».proof.Proof.EdgeAggregate
import Idealize.ShloMosaic.Lib.StableHlo.Run

set_option maxRecDepth 16384

noncomputable section

namespace Cert.KernelIdeal.Result

open Cert.KernelIdeal Cert.KernelIdeal.Gen Cert.KernelIdeal.EdgeTail Cert.KernelIdeal.RegionValue
open Idealize.ShloMosaic Idealize.ShloMosaic.TcCoe Idealize.SL.Sem Idealize.ShloMosaic.StableHlo Cert.NodeAgg

variable (m : (ℓ : Loc nD τ sig) → Buf (Elt Ideal) ℓ) (ρ : Dev nD → PrngReg)

/-! ## The buffers the host lines after the region read -/

/-- The edge list is no array of the region: the later lines find it as launched. -/
theorem left_arg1 (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans
    (V_main_arg1 m c)
/-- Nor are the edge weights. -/
theorem left_arg2 (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)
/-- Nor is the bias. -/
theorem left_arg4 (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans
    (V_main_arg4 m c)
/-- The region's output array is left at the projection. -/
theorem left_v1 (c : Dev nD) :
    Pipeline.withArrays (cfgs 0).spec c (V0 m c) (fun w => (dats m 0 c).arrAt w (cfgs 0).N) (Proc.devRef .tc main_v1)
      = proj (m ((c : Thread nD τ).loc main_arg0)) (m ((c : Thread nD τ).loc main_arg3)) :=
  (Pipeline.withArrays_arr spec0 launch0.win.arr_inj c _ _ 2).trans (final m c)

/-! ## The result buffer -/

/-- Writing a value to a typed buffer and reading it back is the identity. -/
theorem ofBuf_toBuf {T : BufTy} (x : StableHlo.TRef sig T) (v : T.Contents (Elt Ideal)) :
    x.ofBuf (x.toBuf v) = v := by
  obtain ⟨r, rfl, _, _⟩ := x
  rfl

/-- The source row numbers, read through their typed buffer, are what was written there. -/
theorem read_v3 (v : main_v3.ty.Contents (Elt Ideal)) (h1 h2 h3) :
    (StableHlo.TRef.of (T := ⟨S320000, .i32⟩) main_v3 h1 h2 h3).ofBuf v = v := rfl
/-- So is the region's output. -/
theorem read_v1 (v : main_v1.ty.Contents (Elt Ideal)) (h1 h2 h3) :
    (StableHlo.TRef.of (T := ⟨S50000x256, .f32⟩) main_v1 h1 h2 h3).ofBuf v = v := rfl
/-- And the looked-up rows are written to their buffer as they are. -/
theorem write_v6 (v : (⟨S320000x256, .f32⟩ : BufTy).Contents (Elt Ideal)) (h1 h2 h3) :
    (StableHlo.TRef.of (T := ⟨S320000x256, .f32⟩) main_v6 h1 h2 h3).toBuf v = v := rfl

set_option maxHeartbeats 1600000 in
set_option maxRecDepth 131072 in
/-- The host lines after the region, composed: the bounds-checked lookup of the projection's rows, scaled, scattered and
    biased. -/
theorem tail_eq (c : Dev nD) :
    Pipeline.afterTail₀ cfgs (dats m) 0 (V0 m) [hostOps1, hostOps1_1, hostOps1_2] c main_v15
      = scatterBias (take (proj (m ((c : Thread nD τ).loc main_arg0)) (m ((c : Thread nD τ).loc main_arg3)))
          (m ((c : Thread nD τ).loc main_arg1))) (m ((c : Thread nD τ).loc main_arg1))
          (m ((c : Thread nD τ).loc main_arg2)) (m ((c : Thread nD τ).loc main_arg4)) := by
  unfold Pipeline.afterTail₀
  simp only [hostOps1, hostOps1_1, hostOps1_2, List.flatten_cons, List.flatten_nil, List.append_nil, List.cons_append,
    List.nil_append]
  after_results_simp
  rw [left_arg1, left_arg2, left_arg4, left_v1]
  simp only [ofBuf_toBuf, read_v3, read_v1, write_v6]
  rfl

/-- Where every source row number is in `[-50000, 50000)` that is the reference's aggregation of the projection. -/
theorem result_eq (c : Dev nD) (hin : SrcInRange (m ((c : Thread nD τ).loc main_arg1))) :
    Pipeline.afterTail₀ cfgs (dats m) 0 (V0 m) [hostOps1, hostOps1_1, hostOps1_2] c main_v15
      = Cert.ReferenceIdeal.EdgeTail.aggregate
          (proj (m ((c : Thread nD τ).loc main_arg0)) (m ((c : Thread nD τ).loc main_arg3)))
          (m ((c : Thread nD τ).loc main_arg1)) (m ((c : Thread nD τ).loc main_arg2)) (m ((c : Thread nD τ).loc main_arg4)) :=
  (tail_eq m c).trans ((congrArg (fun g => scatterBias g (m ((c : Thread nD τ).loc main_arg1))
      (m ((c : Thread nD τ).loc main_arg2)) (m ((c : Thread nD τ).loc main_arg4))) (take_eq_lookup _ _ hin)).trans
    (scatterBias_lookup_eq _ _ _ _))

/-! ## The run -/

/-- Every weakly fair execution of the kernel program terminates with its result buffer at the aggregation of the
    projection and its five arguments as launched. -/
theorem run (hin : ∀ c : Dev nD, SrcInRange (m ((c : Thread nD τ).loc main_arg1))) :
    θ_run defs (onTc (τ := τ) (main (F := Ideal))) ⟨m, fun _ => 0, ρ⟩ (fun r => ∀ c : Dev nD,
      r.2.mem ((c.tc : Thread nD τ).loc main_v15) = Cert.ReferenceIdeal.EdgeTail.aggregate
          (proj (m ((c : Thread nD τ).loc main_arg0)) (m ((c : Thread nD τ).loc main_arg3)))
          (m ((c : Thread nD τ).loc main_arg1)) (m ((c : Thread nD τ).loc main_arg2)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v15 (Pipeline.mem_restRefs_of main_v15 (by decide) (by decide))).trans (result_eq m c (hin c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Result

end
-- ==== Proof.RefValue.lean ====
/-
  What the reference computes, as the common form: `aggregate (proj x W) edges weights bias`.

  The reference multiplies the node features by the transposed weight matrix in one whole product. Entry `(n, o)` of a
  product with one contracted axis is the sum over `k` of the left operand at `(n, k)` times the right at `(k, o)`, and the
  transposed matrix at `(k, o)` is `W (o, k)`: that is `proj x W`. The rest of the reference is `aggregate` by definition.
-/
import proofs.«423840_j75058848465363_1_alg».proof.Proof.Gen.ReferenceIdeal.Run
import proofs.«423840_j75058848465363_1_alg».proof.Proof.Gen.ReferenceIdeal.Read
import proofs.«423840_j75058848465363_1_alg».proof.Proof.Projection
import proofs.«423840_j75058848465363_1_alg».proof.Proof.EdgeAggregate

open scoped BigOperators

noncomputable section

namespace Cert.ReferenceIdeal.RefValue

open Cert.ReferenceIdeal Cert.ReferenceIdeal.Gen Cert.ReferenceIdeal.Read Cert.ReferenceIdeal.EdgeTail
open Idealize.ShloMosaic Idealize.ShloMosaic.ValueIdx Cert.NodeAgg

/-- The reference's whole product of the features with the transposed weights is the projection. -/
theorem product_eq_proj (x : FVec Ideal S50000x512 .f32) (W : FVec Ideal S256x512 .f32) :
    Host.dotGeneral dot_S50000x512_S512x256_S50000x256_1_0_0_1_n_n none x
      (transpose S512x256 [1, 0] W transposes_S256x512_S512x256_1_0) = proj x W := by
  funext i
  show val_main_v1 (F := Ideal) x W i = _
  rw [val_main_v1_apply]
  unfold proj
  refine Finset.sum_congr rfl fun k _ => ?_
  rw [val_main_v0_apply]
  have e1 : lidx_main_v1 i k = ix2 (i 0) k :=
    funext fun a => Fin.ext (by match a with | ⟨0, _⟩ => rfl | ⟨1, _⟩ => rfl)
  have e2 : idx_main_v0 (ridx_main_v1 i k) = ix2 (i 1) k :=
    funext fun a => Fin.ext (by match a with | ⟨0, _⟩ => rfl | ⟨1, _⟩ => rfl)
  rw [e1, e2]
  rfl

/-- The reference's result: the edge aggregation of the projection. -/
theorem result_eq (x : FVec Ideal S50000x512 .f32) (ei : IVec S2x320000 32) (ew : FVec Ideal S320000 .f32)
    (W : FVec Ideal S256x512 .f32) (b : FVec Ideal S256 .f32) :
    val_main_v21 (F := Ideal) x ei ew W b = aggregate (proj x W) ei ew b := by
  rw [← product_eq_proj]
  rfl

end Cert.ReferenceIdeal.RefValue

end
-- ==== Proof.PreDecode.lean ====
/-
  The precondition read back. Besides the finiteness of the four float inputs it says, in its last two conjuncts, that
  every source row number of the edge list is `≥ -50000` and `< 50000`: each a `jnp.all` of a signed comparison of row 0
  of the edge list against a constant, so the precondition being 1 makes each comparison 1 on every edge. These are the
  row numbers NumPy-style indexing of a table with 50000 rows is defined on.
-/
import proofs.«423840_j75058848465363_1_alg».proof.Proof.Gen.Pre_finite_inputs
import proofs.«423840_j75058848465363_1_alg».proof.Proof.EdgeAggregate
import Idealize.ShloMosaic.Lib.ReduceAll
import Idealize.ShloMosaic.Lib.ValueIdx

noncomputable section

namespace Cert.Pre_finite_inputs.Decode

open Cert.Pre_finite_inputs Cert.Pre_finite_inputs.Gen Idealize.ShloMosaic Cert.NodeAgg

/-- The scalar shape has one index. -/
instance : Subsingleton S_.Idx := ⟨fun a b => funext fun d => d.elim0⟩

/-- Where the precondition holds, every source row number lies in `[-50000, 50000)`. -/
theorem src_in_range (x : FVec Ideal S50000x512 .f32) (ei : IVec S2x320000 32) (ew : FVec Ideal S320000 .f32)
    (W : FVec Ideal S256x512 .f32) (b : FVec Ideal S256 .f32)
    (h : fn (F := Ideal) x ei ew W b = fun _ => 1#1) : Cert.KernelIdeal.EdgeTail.SrcInRange ei := by
  have h0 := congrFun h ValueIdx.ix0
  dsimp only [fn, fn_part1] at h0
  obtain ⟨h1, hlt⟩ := IntOp.andi_eq_one.1 h0
  obtain ⟨-, hge⟩ := IntOp.andi_eq_one.1 h1
  intro e
  have a := Host.reduce_andi_all _ _ _ _ _ hge e
  have c := Host.reduce_andi_all _ _ _ _ _ hlt e
  have a' : (4294917296#32 : BitVec 32).toInt ≤ (Cert.KernelIdeal.EdgeTail.src ei e).toInt := IntOp.cmpi_sge.1 a
  have c' : (Cert.KernelIdeal.EdgeTail.src ei e).toInt < (50000#32 : BitVec 32).toInt := IntOp.cmpi_slt.1 c
  rw [toInt_neg50000] at a'
  rw [toInt_50000] at c'
  exact ⟨a', c'⟩

end Cert.Pre_finite_inputs.Decode

end
-- ==== Proof.lean ====
/-
  A graph-convolution layer: `out = segment_sum(w[:, None] · h[src], dst) + b` with `h = x · Wᵀ`, over 50000 nodes,
  320000 weighted edges, 512 input and 256 output channels. The kernel computes `h` 2000 rows at a time on the matrix
  unit (operands narrowed to bf16, accumulated in f32) and does the edge work on the host with a bounds-checked
  lookup; the reference computes `h` as one product and indexes NumPy-style.

  Over the extended reals narrowing is the identity and a row tiling regroups no entry's sum, so both `h`s are ONE
  function, `proj x W (n, o) = ∑ k, x (n, k) · W (o, k)` (Proof/Projection.lean; the kernel's side in
  Proof/KernelProj.lean, the reference's in Proof/RefValue.lean). After `h` the two programs differ only in the lookup:
  both wrap a negative source row number `s` to `s + 50000`; the reference then lets the lookup clamp, the kernel tests
  `0 ≤ · ≤ 49999` and substitutes a not-a-number row where the test fails. The two agree exactly where the wrapped
  number needs no clamping, that is for `-50000 ≤ s < 50000`: the row numbers on which indexing a 50000-row table is
  defined at all, and what the precondition's last two conjuncts say (Proof/PreDecode.lean). There the test passes on
  every edge (Proof/WrapIndex.lean), the kernel's lookup is the reference's, and scaling, scatter-add and bias are the
  same operations on the same operands (Proof/EdgeAggregate.lean, Proof/KernelResult.lean). No law of the extended
  reals is used and the finiteness of the float inputs is never opened.

  The three frames are the programs' runs with the results dropped; the idealization rewrote nothing, so `preserves`
  is trivial.
-/
import proofs.«423840_j75058848465363_1_alg».proof.Defs
import proofs.«423840_j75058848465363_1_alg».proof.Proof.Gen.Kernel
import proofs.«423840_j75058848465363_1_alg».proof.Proof.Gen.Kernel.Skeleton
import proofs.«423840_j75058848465363_1_alg».proof.Proof.Gen.Kernel.Launch
import proofs.«423840_j75058848465363_1_alg».proof.Proof.Gen.Kernel.Points
import proofs.«423840_j75058848465363_1_alg».proof.Proof.Gen.Kernel.Frame
import proofs.«423840_j75058848465363_1_alg».proof.Proof.Gen.KernelIdeal
import proofs.«423840_j75058848465363_1_alg».proof.Proof.Gen.KernelIdeal.Skeleton
import proofs.«423840_j75058848465363_1_alg».proof.Proof.Gen.KernelIdeal.Launch
import proofs.«423840_j75058848465363_1_alg».proof.Proof.Gen.KernelIdeal.Points
import proofs.«423840_j75058848465363_1_alg».proof.Proof.Gen.KernelIdeal.Frame
import proofs.«423840_j75058848465363_1_alg».proof.Proof.Gen.ReferenceIdeal
import proofs.«423840_j75058848465363_1_alg».proof.Proof.Gen.ReferenceIdeal.Run
import proofs.«423840_j75058848465363_1_alg».proof.Proof.Gen.ReferenceIdeal.Read
import proofs.«423840_j75058848465363_1_alg».proof.Proof.Gen.Pre_finite_inputs
import proofs.«423840_j75058848465363_1_alg».proof.Proof.KernelResult
import proofs.«423840_j75058848465363_1_alg».proof.Proof.RefValue
import proofs.«423840_j75058848465363_1_alg».proof.Proof.PreDecode
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five arguments, under the precondition, both programs end with their result at the
    edge aggregation of the projection of the launched arrays. -/
theorem algebraic : Cert.algebraic_KernelIdeal_ReferenceIdeal := by
  intro m ρ m' ρ' hpre hagree
  have hin : ∀ c : Dev Cert.KernelIdeal.nD, Cert.KernelIdeal.EdgeTail.SrcInRange
      (m ((c.tc : Thread Cert.KernelIdeal.nD Cert.KernelIdeal.τ).loc Cert.KernelIdeal.main_arg1)) :=
    fun c => Cert.Pre_finite_inputs.Decode.src_in_range _ _ _ _ _ (hpre c)
  refine ⟨_, Cert.KernelIdeal.Result.run m ρ hin, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v21_eq _ _ _ _ _).trans (Cert.ReferenceIdeal.RefValue.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
